-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x64 .f32) (main_arg8 : FVec F S64 .f32) (main_arg9 : FVec F S64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1200000 32) (main_arg2 : FVec F S1200000x64 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg2
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x128 : Shape := ⟨2, ![1, 128]⟩
abbrev S1x64 : Shape := ⟨2, ![1, 64]⟩
abbrev S2000x64 : Shape := ⟨2, ![2000, 64]⟩
abbrev S2000x128 : Shape := ⟨2, ![2000, 128]⟩
abbrev S2000 : Shape := ⟨1, ![2000]⟩
abbrev S2000x1 : Shape := ⟨2, ![2000, 1]⟩

abbrev nBuf : Space → Nat
  | .hbm => 26
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S100000x64, .f32⟩
  | .hbm, ⟨15, _⟩ => ⟨S1200000x1, .i32⟩
  | .hbm, ⟨16, _⟩ => ⟨S100000x64, .f32⟩
  | .hbm, ⟨17, _⟩ => ⟨S128x128, .bf16⟩
  | .hbm, ⟨18, _⟩ => ⟨S128x128, .bf16⟩
  | .hbm, ⟨19, _⟩ => ⟨S128x64, .bf16⟩
  | .hbm, ⟨20, _⟩ => ⟨S1x128, .f32⟩
  | .hbm, ⟨21, _⟩ => ⟨S1x128, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1200000_S1x1200000_1_0 : S2x1200000.Slices ![1, 0] S1x1200000
  shapeCasts_S1x1200000_S1200000 : S1x1200000.ShapeCasts S1200000
  bcast_S_S100000x64 : S_.BroadcastsInDim S100000x64 (![] : Fin 0 → Fin S100000x64.rank)
  bcast_S1200000_S1200000x1_0 : S1200000.BroadcastsInDim S1200000x1 (![0] : Fin 1 → Fin S1200000x1.rank)
  bitsLt_bf16_f32 : FTy.bits .bf16 < FTy.bits .f32
  shapeCasts_S128_S1x128 : S128.ShapeCasts S1x128
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S100000x64_S1200000x1_S1200000x64_1_0_0_1_wf : ScatterDims.WF S100000x64 S1200000x1 S1200000x64 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S100000x64.size a
  hwx0_10 : ∀ i : grid0.Coords, EltTy.bits .f32 = 32 ∨ (Rect.block (s := S100000x64) S2000x64.size (cc0_transform_10 i) (hinb0_10 i)).WholeWords (EltTy.packing .f32)

variable [Facts₀]

def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x128 : Shape := ⟨2, ![100000, 128]⟩
abbrev S1x128 : Shape := ⟨2, ![1, 128]⟩
abbrev S1x64 : Shape := ⟨2, ![1, 64]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S100000x64, .f32⟩
  | .hbm, ⟨15, _⟩ => ⟨S1200000x1, .i32⟩
  | .hbm, ⟨16, _⟩ => ⟨S100000x64, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  slices_S2x1200000_S1x1200000_1_0 : S2x1200000.Slices ![1, 0] S1x1200000
  shapeCasts_S1x1200000_S1200000 : S1x1200000.ShapeCasts S1200000
  bcast_S_S100000x64 : S_.BroadcastsInDim S100000x64 (![] : Fin 0 → Fin S100000x64.rank)
  bcast_S1200000_S1200000x1_0 : S1200000.BroadcastsInDim S1200000x1 (![0] : Fin 1 → Fin S1200000x1.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000x64_S1200000x1_S1200000x64_1_0_0_1_wf : ScatterDims.WF S100000x64 S1200000x1 S1200000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.NodeUpdate.lean ====
/-
  One node's update, as a function of rows of extended reals.

  A node carries 64 features of its own and 64 aggregated edge features; the update joins them into one row of 128,
  puts that row through three affine layers (128 to 128, 128 to 128, 128 to 64) with a rectifier after the first two,
  normalises the 64 results about their mean (variance plus a small constant under a reciprocal square root), scales
  and shifts them per feature, and adds the node's own features back. Each output row depends on one input row and
  on the whole weight arrays: that is why the rows can be computed in any tiling.

  `G` is the same thing for every row of a 100000-row array at once, index by index.
-/
import Idealize.ShloMosaic.PureOps.Ideal
import Idealize.ShloMosaic.Lib.ValueIdx

noncomputable section

open scoped BigOperators

namespace Cert.NodeUpdate

open Idealize.ShloMosaic Idealize.ShloMosaic.ValueIdx

/-- A node's own features followed by its aggregated edge features: entry `p` is `xr p` below 64 and `ar (p - 64)`
    from 64 on. -/
def joined (xr ar : Fin 64 → EReal) (p : Fin 128) : EReal :=
  if h : p.val < 64 then xr ⟨p.val, h⟩ else ar ⟨p.val - 64, by have := p.isLt; omega⟩

/-- One affine layer at output feature `j`: the row times column `j` of the weights, plus the bias. -/
def affine {K N : ℕ} (a : Fin K → EReal) (W : Fin K → Fin N → EReal) (b : Fin N → EReal) (j : Fin N) : EReal :=
  (∑ k : Fin K, a k * W k j) + b j

/-- The rectifier: the larger of the value and zero (zero as the all-zero f32 word). -/
def relu (v : EReal) : EReal := max v (Ideal.ofBits .f32 0x00000000#32)

/-- The three layers on the joined row: the 64 values the normalisation then sees. -/
def mlp (xr ar : Fin 64 → EReal) (W0 : Fin 128 → Fin 128 → EReal) (b0 : Fin 128 → EReal)
    (W1 : Fin 128 → Fin 128 → EReal) (b1 : Fin 128 → EReal) (W2 : Fin 128 → Fin 64 → EReal) (b2 : Fin 64 → EReal) :
    Fin 64 → EReal :=
  affine (fun k => relu (affine (fun l => relu (affine (joined xr ar) W0 b0 l)) W1 b1 k)) W2 b2

/-- The mean of 64 values: their sum divided by the f32 word of 64. -/
def mean64 (h : Fin 64 → EReal) : EReal := Ideal.div (∑ j : Fin 64, h j) (Ideal.ofBits .f32 0x42800000#32)

/-- The row `h` centred at `mu`, divided by the root of its mean square deviation from `mu` plus the small constant,
    scaled by `g`, shifted by `b`, with the residual `xr` added. -/
def normed (h : Fin 64 → EReal) (mu : EReal) (g b xr : Fin 64 → EReal) (q : Fin 64) : EReal :=
  (h q - mu) * Ideal.rsqrt (mean64 (fun j => (h j - mu) * (h j - mu)) + Ideal.ofBits .f32 0x3727C5AC#32) * g q + b q + xr q

/-- The whole update of one row. -/
def rowOut (xr ar : Fin 64 → EReal) (W0 : Fin 128 → Fin 128 → EReal) (b0 : Fin 128 → EReal)
    (W1 : Fin 128 → Fin 128 → EReal) (b1 : Fin 128 → EReal) (W2 : Fin 128 → Fin 64 → EReal) (b2 : Fin 64 → EReal)
    (g b : Fin 64 → EReal) (q : Fin 64) : EReal :=
  normed (mlp xr ar W0 b0 W1 b1 W2 b2) (mean64 (mlp xr ar W0 b0 W1 b1 W2 b2)) g b xr q

/-- The update of every node: entry `(r, q)` is `rowOut` of row `r` of the node features and of the aggregated edge
    features, at feature `q`. -/
def G (x agg : (⟨2, ![100000, 64]⟩ : Shape).Idx → EReal) (W0 : (⟨2, ![128, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 g b : (⟨1, ![64]⟩ : Shape).Idx → EReal) : (⟨2, ![100000, 64]⟩ : Shape).Idx → EReal :=
  fun i => rowOut (fun j => x (ix2 (i 0 : Fin 100000) j)) (fun j => agg (ix2 (i 0 : Fin 100000) j))
    (fun k l => W0 (ix2 k l)) (fun l => b0 (ix1 l)) (fun k l => W1 (ix2 k l)) (fun l => b1 (ix1 l))
    (fun k l => W2 (ix2 k l)) (fun l => b2 (ix1 l)) (fun l => g (ix1 l)) (fun l => b (ix1 l)) (i 1 : Fin 64)

/-- `G` at the index with coordinates `(r, q)`. -/
theorem G_ix2 (x agg : (⟨2, ![100000, 64]⟩ : Shape).Idx → EReal) (W0 : (⟨2, ![128, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 g b : (⟨1, ![64]⟩ : Shape).Idx → EReal) (r : Fin 100000) (q : Fin 64) :
    G x agg W0 b0 W1 b1 W2 b2 g b (ix2 r q)
      = rowOut (fun j => x (ix2 r j)) (fun j => agg (ix2 r j)) (fun k l => W0 (ix2 k l)) (fun l => b0 (ix1 l))
          (fun k l => W1 (ix2 k l)) (fun l => b1 (ix1 l)) (fun k l => W2 (ix2 k l)) (fun l => b2 (ix1 l))
          (fun l => g (ix1 l)) (fun l => b (ix1 l)) q := rfl

end Cert.NodeUpdate

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.KernelRow.lean ====
/-
  The kernel's block computation read one element at a time.

  At a grid point the body holds a 2000-row block of node features, the matching block of aggregated edge features, and
  the whole weight, bias, scale and shift arrays (biases, scale and shift as single rows). Every operation of the body is
  either elementwise, a row broadcast, a column broadcast of a per-row value, a sum along a row, or a product with a
  weight matrix; so element `(p, q)` of what it stores depends on row `p` of the two feature blocks only, and is
  `NodeUpdate.rowOut` of those rows. The lemmas below say so operation by operation: the join of the two blocks, one
  dense layer (a block times a weight matrix into a zero accumulator, plus a bias row, with or without the rectifier), the
  row mean, and the normalisation.
-/
import proofs.«181308_j31877247271255_1_alg».proof.Proof.Gen.KernelIdeal.Skeleton
import proofs.«181308_j31877247271255_1_alg».proof.Proof.NodeUpdate
import proofs.«181308_j31877247271255_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.NodeUpdate

/-! ## The join of the two feature blocks -/

/-- Row `p` of the joined block is row `p` of the node features followed by row `p` of the aggregated features. -/
theorem joined_apply (v0 v1 : Vec Ideal S2000x64 .f32) (p : Fin 2000) (k : Fin 128) :
    concatenate S2000x128 1 [⟨S2000x64, v0⟩, ⟨S2000x64, shapeCast S2000x64 v1 shapeCasts_S2000x64_S2000x64⟩]
        concatenates_S2000x64_S2000x64_S2000x128_d1 (ix2 p k)
      = joined (fun j => v0 (ix2 p j)) (fun j => v1 (ix2 p j)) k := by
  rw [shapeCast_self]
  unfold joined
  split
  next h =>
    exact concatenate_pair_apply_left (t := S2000x128) (s₁ := S2000x64) (s₂ := S2000x64) 1 v0 v1
      concatenates_S2000x64_S2000x64_S2000x128_d1 (ix2 p k) rfl (ix2 p ⟨k.val, h⟩)
      (fun b => match b with | ⟨0, _⟩ => rfl | ⟨1, _⟩ => rfl)
  next h =>
    exact concatenate_pair_apply_right (t := S2000x128) (s₁ := S2000x64) (s₂ := S2000x64) 1 v0 v1
      concatenates_S2000x64_S2000x64_S2000x128_d1 (ix2 p k) rfl rfl (ix2 p ⟨k.val - 64, by have := k.isLt; omega⟩)
      (fun b hb => match b, hb with | ⟨0, _⟩, _ => rfl | ⟨1, _⟩, hb => absurd rfl hb)
      (by show k.val - 64 + 64 = k.val; omega)

/-! ## A block times a weight matrix -/

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into a zero accumulator, a 2000 × 128 block times a 128 × 128 matrix is, at `(p, l)`, the sum over `k` of the
    block's row `p` times the matrix's column `l`. -/
theorem matmul128_apply {φ₁ φ₂ : FTy} (A : FVec Ideal S2000x128 φ₁) (B : FVec Ideal S128x128 φ₂) (p : Fin 2000) (l : Fin 128) :
    matmul dot_S2000x128_S128x128_S2000x128_1_0_0_1_n_n none A B (constant S2000x128 .f32 0x00000000#32) (ix2 p l)
      = ∑ k : Fin 128, A (ix2 p k) * B (ix2 k l) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p l) ((contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p l) ((contrEquiv1 dot_S2000x128_S128x128_S2000x128_1_0_0_1_n_n 128 rfl rfl).symm k) = ix2 k l := funext fun a => Fin.ext (by
    match a with
    | ⟨0, _⟩ => exact (rhs128_0 _ _).trans hk
    | ⟨1, _⟩ => exact rhs128_1 _ _)
  rw [el, er]

theorem lhs64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs64_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs64_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The same for the last layer's 128 × 64 matrix. -/
theorem matmul64_apply {φ₁ φ₂ : FTy} (A : FVec Ideal S2000x128 φ₁) (B : FVec Ideal S128x64 φ₂) (p : Fin 2000) (j : Fin 64) :
    matmul dot_S2000x128_S128x64_S2000x64_1_0_0_1_n_n none A B (constant S2000x64 .f32 0x00000000#32) (ix2 p j)
      = ∑ k : Fin 128, A (ix2 p k) * B (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p j) ((contrEquiv1 dot_S2000x128_S128x64_S2000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S2000x128_S128x64_S2000x64_1_0_0_1_n_n.rhsIdx (ix2 p j) ((contrEquiv1 dot_S2000x128_S128x64_S2000x64_1_0_0_1_n_n 128 rfl rfl).symm k) = ix2 k j := funext fun a => Fin.ext (by
    match a with
    | ⟨0, _⟩ => exact (rhs64_0 _ _).trans hk
    | ⟨1, _⟩ => exact rhs64_1 _ _)
  rw [el, er]

/-! ## The dense layers -/

/-- A rectified 128 → 128 layer of the body at `(p, l)`: the rectifier of the affine layer on row `p` of the block (the
    narrowing of the block to sixteen bits is the identity on extended reals). -/
theorem dense_relu_apply (H : FVec Ideal S2000x128 .f32) (w : Vec Ideal S128x128 .bf16) (bias : Vec Ideal S1x128 .f32)
    (p : Fin 2000) (l : Fin 128) :
    maximumf (addf (matmul dot_S2000x128_S128x128_S2000x128_1_0_0_1_n_n none (truncf .bf16 H bitsLt_bf16_f32)
          (shapeCast S128x128 w shapeCasts_S128x128_S128x128 : FVec Ideal S128x128 .bf16) (constant S2000x128 .f32 0x00000000#32))
        (broadcastTo S2000x128 (shapeCast S1x128 bias shapeCasts_S1x128_S1x128) broadcasts_S1x128_S2000x128))
      (broadcast S2000x128 (Scalar.ofBits .f32 0x00000000#32)) (ix2 p l)
      = relu (affine (fun k => H (ix2 p k)) (fun k l => w (ix2 k l)) (fun l => bias (ix2 (0 : Fin 1) l)) l) := by
  rw [maximumf_apply, addf_apply, matmul128_apply, shapeCast_self, shapeCast_self, broadcastTo_1b_ab_apply]
  rfl

/-- The last layer, 128 → 64 with no rectifier, at `(p, j)`. -/
theorem dense_apply (H : FVec Ideal S2000x128 .f32) (w : Vec Ideal S128x64 .bf16) (bias : Vec Ideal S1x64 .f32)
    (p : Fin 2000) (j : Fin 64) :
    addf (matmul dot_S2000x128_S128x64_S2000x64_1_0_0_1_n_n none (truncf .bf16 H bitsLt_bf16_f32)
          (shapeCast S128x64 w shapeCasts_S128x64_S128x64 : FVec Ideal S128x64 .bf16) (constant S2000x64 .f32 0x00000000#32))
        (broadcastTo S2000x64 (shapeCast S1x64 bias shapeCasts_S1x64_S1x64) broadcasts_S1x64_S2000x64) (ix2 p j)
      = affine (fun k => H (ix2 p k)) (fun k l => w (ix2 k l)) (fun l => bias (ix2 (0 : Fin 1) l)) j := by
  rw [addf_apply, matmul64_apply, shapeCast_self, shapeCast_self, broadcastTo_1b_ab_apply]
  rfl

/-- The three layers: the value the body normalises, at `(p, j)`, is `mlp` of row `p` of the two feature blocks. -/
theorem pay2_apply (v0 v1 : Vec Ideal S2000x64 .f32) (v5 : Vec Ideal S128x128 .bf16) (v8 : Vec Ideal S1x128 .f32)
    (v15 : Vec Ideal S128x128 .bf16) (v18 : Vec Ideal S1x128 .f32) (v25 : Vec Ideal S128x64 .bf16) (v28 : Vec Ideal S1x64 .f32)
    (p : Fin 2000) (j : Fin 64) :
    k0_pay2 v0 v1 v5 v8 v15 v18 v25 v28 (ix2 p j)
      = mlp (fun j => v0 (ix2 p j)) (fun j => v1 (ix2 p j)) (fun k l => v5 (ix2 k l)) (fun l => v8 (ix2 (0 : Fin 1) l))
          (fun k l => v15 (ix2 k l)) (fun l => v18 (ix2 (0 : Fin 1) l)) (fun k l => v25 (ix2 k l)) (fun l => v28 (ix2 (0 : Fin 1) l)) j := by
  unfold k0_pay2 mlp
  refine (dense_apply _ v25 v28 p j).trans ?_
  refine congrArg (fun a => affine a _ _ j) (funext fun k => ?_)
  refine (dense_relu_apply _ v15 v18 p k).trans ?_
  refine congrArg relu (congrArg (fun a => affine a _ _ k) (funext fun l => ?_))
  refine (dense_relu_apply _ v5 v8 p l).trans ?_
  refine congrArg relu (congrArg (fun a => affine a _ _ l) (funext fun q => ?_))
  exact joined_apply v0 v1 p q

/-! ## The row mean and the normalisation -/

/-- The sum along the rows read at row `p`: the sum of that row's 64 entries. -/
theorem rowsum_apply (Pv : FVec Ideal S2000x64 .f32) (p : Fin 2000) :
    multiReduction .add [1] S2000 Pv 0x00000000#32 reduces_S2000x64_S2000 (.inl rfl) rfl (ix1 p) = ∑ j : Fin 64, Pv (ix2 p j) :=
  (Ideal.multiReduction_add_single Pv 0x00000000#32 reduces_S2000x64_S2000 (.inl rfl) rfl (ix1 p)).trans
    (Finset.sum_congr rfl fun k _ => congrArg Pv (lift_row reduces_S2000x64_S2000 p k))

/-- The sum along each row, made a column and divided by 64, read at row `p`: the mean of that row. -/
theorem rowmean_apply (Pv : FVec Ideal S2000x64 .f32) (p : Fin 2000) (u : Fin 1) :
    divf (shapeCast S2000x1 (multiReduction .add [1] S2000 Pv 0x00000000#32 reduces_S2000x64_S2000 (.inl rfl) rfl) shapeCasts_S2000_S2000x1)
        (broadcast S2000x1 (Scalar.ofBits .f32 0x42800000#32)) (ix2 p u)
      = mean64 (fun j => Pv (ix2 p j)) := by
  rw [divf_apply, shapeCast_a_a1_apply]
  exact congrArg (fun s => Ideal.div s (Ideal.ofBits .f32 0x42800000#32)) (rowsum_apply Pv p)

/-- The body's row mean is the mean of the three layers' row. -/
theorem pay3_apply (v0 v1 : Vec Ideal S2000x64 .f32) (v5 : Vec Ideal S128x128 .bf16) (v8 : Vec Ideal S1x128 .f32)
    (v15 : Vec Ideal S128x128 .bf16) (v18 : Vec Ideal S1x128 .f32) (v25 : Vec Ideal S128x64 .bf16) (v28 : Vec Ideal S1x64 .f32)
    (p : Fin 2000) (u : Fin 1) :
    k0_pay3 v0 v1 v5 v8 v15 v18 v25 v28 (ix2 p u) = mean64 (fun j => k0_pay2 v0 v1 v5 v8 v15 v18 v25 v28 (ix2 p j)) := by
  unfold k0_pay3
  exact rowmean_apply _ p u

/-- The stored value at `(p, q)`, for any values `v31` to normalise and any column `v35` of centres: `normed` of row `p`
    of `v31` about `v35`'s entry of that row, with the scale and shift rows and the node features' row as residual. -/
theorem pay1_apply (v0 : Vec Ideal S2000x64 .f32) (v31 : FVec Ideal S2000x64 .f32) (v35 : FVec Ideal S2000x1 .f32)
    (v50 v54 : Vec Ideal S1x64 .f32) (p : Fin 2000) (q : Fin 64) :
    k0_pay1 v0 v31 v35 v50 v54 (ix2 p q)
      = normed (fun j => v31 (ix2 p j)) (v35 (ix2 p (0 : Fin 1))) (fun l => v50 (ix2 (0 : Fin 1) l))
          (fun l => v54 (ix2 (0 : Fin 1) l)) (fun j => v0 (ix2 p j)) q := by
  unfold k0_pay1 normed
  have hc : ∀ j : Fin 64, subf v31 (broadcastTo S2000x64 v35 broadcasts_S2000x1_S2000x64) (ix2 p j)
      = v31 (ix2 p j) - v35 (ix2 p (0 : Fin 1)) := fun j => by
    rw [subf_apply, broadcastTo_a1_ab_apply]
  rw [addf_apply, addf_apply, mulf_apply, mulf_apply, hc q, broadcastTo_a1_ab_apply, broadcastTo_1b_ab_apply,
    broadcastTo_1b_ab_apply, shapeCast_self, shapeCast_self]
  show _ * Ideal.rsqrt (_ + _) * _ + _ + _ = _
  rw [rowmean_apply]
  refine congrArg (fun s => (v31 (ix2 p q) - v35 (ix2 p (0 : Fin 1))) * Ideal.rsqrt (mean64 s + _) * _ + _ + _) (funext fun j => ?_)
  rw [mulf_apply, hc j]

/-- The whole body at `(p, q)`: `rowOut` of row `p` of the node feature block and of the aggregated feature block. -/
theorem body_apply (v0 v1 : Vec Ideal S2000x64 .f32) (v5 : Vec Ideal S128x128 .bf16) (v8 : Vec Ideal S1x128 .f32)
    (v15 : Vec Ideal S128x128 .bf16) (v18 : Vec Ideal S1x128 .f32) (v25 : Vec Ideal S128x64 .bf16) (v28 v50 v54 : Vec Ideal S1x64 .f32)
    (p : Fin 2000) (q : Fin 64) :
    k0_pay1 v0 (k0_pay2 v0 v1 v5 v8 v15 v18 v25 v28) (k0_pay3 v0 v1 v5 v8 v15 v18 v25 v28) v50 v54 (ix2 p q)
      = rowOut (fun j => v0 (ix2 p j)) (fun j => v1 (ix2 p j)) (fun k l => v5 (ix2 k l)) (fun l => v8 (ix2 (0 : Fin 1) l))
          (fun k l => v15 (ix2 k l)) (fun l => v18 (ix2 (0 : Fin 1) l)) (fun k l => v25 (ix2 k l)) (fun l => v28 (ix2 (0 : Fin 1) l))
          (fun l => v50 (ix2 (0 : Fin 1) l)) (fun l => v54 (ix2 (0 : Fin 1) l)) q := by
  rw [pay1_apply, pay3_apply]
  unfold rowOut
  have e : (fun j => k0_pay2 v0 v1 v5 v8 v15 v18 v25 v28 (ix2 p j))
      = mlp (fun j => v0 (ix2 p j)) (fun j => v1 (ix2 p j)) (fun k l => v5 (ix2 k l)) (fun l => v8 (ix2 (0 : Fin 1) l))
          (fun k l => v15 (ix2 k l)) (fun l => v18 (ix2 (0 : Fin 1) l)) (fun k l => v25 (ix2 k l)) (fun l => v28 (ix2 (0 : Fin 1) l)) :=
    funext fun j => pay2_apply v0 v1 v5 v8 v15 v18 v25 v28 p j
  rw [e]

end Cert.KernelIdeal.Row

end
-- ==== Proof.KernelArray.lean ====
/-
  From the blocks to the array: what the kernel's result array holds after the run.

  The grid has 50 points; point `t` stages rows `2000 t … 2000 t + 1999` of the node features and of the aggregated edge
  features, the whole of every weight, bias, scale and shift array, and writes back rows `2000 t … 2000 t + 1999` of the
  result. Before the region the host has scatter-added the edge features into the aggregated array, narrowed the three
  weight matrices to sixteen bits (the identity on extended reals) and viewed each bias, the scale and the shift as a
  single row. So the block point `t` writes back is rows `2000 t …` of `NodeUpdate.G` of the arguments (`flushed_eq`: the
  body's value at `(p, q)` is `rowOut` of row `p` of the blocks, which is row `2000 t + p` of the arrays), the 50 blocks
  cover the array (row `r` lies in point `r / 2000`'s block), and the array ends holding `G` (`final`, `run`).
-/
import proofs.«181308_j31877247271255_1_alg».proof.Proof.Gen.KernelIdeal.Frame
import proofs.«181308_j31877247271255_1_alg».proof.Proof.Gen.KernelIdeal.Value
import proofs.«181308_j31877247271255_1_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Value Idealize.ShloMosaic.ValueIdx Idealize.ShloMosaic.StableHlo Cert.NodeUpdate

variable (m : (ℓ : Loc nD τ sig) → Buf (Elt Ideal) ℓ) (ρ : Dev nD → PrngReg)

theorem hz : (![0, 0] : Fin 2 → Nat) = fun _ => 0 := funext fun a => by fin_cases a <;> rfl

/-! ## What the host leaves in each staged array -/

/-- The aggregated edge features: the edge features scatter-added, by the second row of the edge index, into zeros. -/
def agg (x1 : (⟨S2x1200000, .i32⟩ : BufTy).Contents (Elt Ideal)) (x2 : (⟨S1200000x64, .f32⟩ : BufTy).Contents (Elt Ideal)) :
    (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0
      (shapeCast S1200000 (extractStridedSlice S1x1200000 ![1, 0] x1 slices_S2x1200000_S1x1200000_1_0) shapeCasts_S1x1200000_S1200000))
    x2

theorem V_agg (c : Dev nD) : (V m c main_v4 : S100000x64.Idx → Elt Ideal .f32) = agg (m ((c : Thread nD τ).loc main_arg1)) (m ((c : Thread nD τ).loc main_arg2)) := by
  dsimp only [Gen.V, Gen.hostOps0]; after_results; rfl
/-- The same, with the array named as the second window's. -/
theorem V_agg1 (c : Dev nD) : V m c (Pipeline.arrRef spec0 1) = agg (m ((c : Thread nD τ).loc main_arg1)) (m ((c : Thread nD τ).loc main_arg2)) :=
  V_agg m c
theorem V_w0 (c : Dev nD) : (V m c main_v5 : S128x128.Idx → Elt Ideal .bf16) = (truncf .bf16 (m ((c : Thread nD τ).loc main_arg3) : FVec Ideal S128x128 .f32) bitsLt_bf16_f32 : FVec Ideal S128x128 .bf16) := by
  dsimp only [Gen.V, Gen.hostOps0]; after_results
theorem V_w1 (c : Dev nD) : (V m c main_v6 : S128x128.Idx → Elt Ideal .bf16) = (truncf .bf16 (m ((c : Thread nD τ).loc main_arg5) : FVec Ideal S128x128 .f32) bitsLt_bf16_f32 : FVec Ideal S128x128 .bf16) := by
  dsimp only [Gen.V, Gen.hostOps0]; after_results
theorem V_w2 (c : Dev nD) : (V m c main_v7 : S128x64.Idx → Elt Ideal .bf16) = (truncf .bf16 (m ((c : Thread nD τ).loc main_arg7) : FVec Ideal S128x64 .f32) bitsLt_bf16_f32 : FVec Ideal S128x64 .bf16) := by
  dsimp only [Gen.V, Gen.hostOps0]; after_results
theorem V_b0 (c : Dev nD) : (V m c main_v8 : S1x128.Idx → Elt Ideal .f32) = shapeCast S1x128 (m ((c : Thread nD τ).loc main_arg4) : S128.Idx → Elt Ideal .f32) shapeCasts_S128_S1x128 := by
  dsimp only [Gen.V, Gen.hostOps0]; after_results; rfl
theorem V_b1 (c : Dev nD) : (V m c main_v9 : S1x128.Idx → Elt Ideal .f32) = shapeCast S1x128 (m ((c : Thread nD τ).loc main_arg6) : S128.Idx → Elt Ideal .f32) shapeCasts_S128_S1x128 := by
  dsimp only [Gen.V, Gen.hostOps0]; after_results; rfl
theorem V_b2 (c : Dev nD) : (V m c main_v10 : S1x64.Idx → Elt Ideal .f32) = shapeCast S1x64 (m ((c : Thread nD τ).loc main_arg8) : S64.Idx → Elt Ideal .f32) shapeCasts_S64_S1x64 := by
  dsimp only [Gen.V, Gen.hostOps0]; after_results; rfl
theorem V_g (c : Dev nD) : (V m c main_v11 : S1x64.Idx → Elt Ideal .f32) = shapeCast S1x64 (m ((c : Thread nD τ).loc main_arg9) : S64.Idx → Elt Ideal .f32) shapeCasts_S64_S1x64 := by
  dsimp only [Gen.V, Gen.hostOps0]; after_results; rfl
theorem V_b (c : Dev nD) : (V m c main_v12 : S1x64.Idx → Elt Ideal .f32) = shapeCast S1x64 (m ((c : Thread nD τ).loc main_arg10) : S64.Idx → Elt Ideal .f32) shapeCasts_S64_S1x64 := by
  dsimp only [Gen.V, Gen.hostOps0]; after_results; rfl

/-! ## Where each window's block sits -/

/-- The printed index maps over the grid: the two feature windows and the result window are at block row `t`, every
    other window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem t_lt (t : Fin cfg0.N) : t.val < 50 := lt_of_lt_of_eq t.isLt N_0

/-- An element of a window's block sits in the array, on axis `a`, at the block index times the block's extent plus its own
    coordinate; stated with the three numbers named, so that it is used by rewriting and nothing is computed. -/
theorem emb_val (w : Pipeline.Window sig grid0) (t : Fin grid0.N) (y : (w.xblock (grid0.coords t)).Idx) (a : Fin w.shape.rank)
    (I S Y : Nat) (hI : w.index t a = I) (hS : w.size a = S) (hY : (y a : Nat) = Y) :
    ((w.rect t).emb y a : Nat) = I * S + Y := by
  rw [w.rect_emb_val t y a, hI, hS, hY]

/-- The node features' block at point `t`: rows `2000 t …` of the argument. -/
theorem iblk_x (c : Dev nD) (t : Fin cfg0.N) (p : Fin 2000) (j : Fin 64) :
    (iblk m c 0 t : Vec Ideal S2000x64 .f32) (ix2 p j)
      = (m ((c : Thread nD τ).loc main_arg0) : S100000x64.Idx → Elt Ideal .f32) (ix2 ⟨2000 * t.val + p.val, by have := t_lt t; have := p.isLt; omega⟩ j) := by
  obtain ⟨⟨h0, h1⟩, -⟩ := idx_facts t
  unfold iblk
  rw [View.read_apply]
  show V m c main_arg0 _ = _
  rw [V_main_arg0]
  refine congrArg _ ?_
  funext a
  apply Fin.ext
  match a with
  | ⟨0, _⟩ => exact (emb_val win0_0 t (ix2 p j) _ t.val 2000 p.val h0 rfl rfl).trans (Nat.mul_comm _ _ ▸ rfl)
  | ⟨1, _⟩ => exact (emb_val win0_0 t (ix2 p j) _ 0 64 j.val h1 rfl rfl).trans (by rw [Nat.zero_mul, Nat.zero_add])

/-- Any array read through the second window's block at point `t`: element `(p, j)` of the block is element
    `(2000 t + p, j)` of the array. Stated for a variable array, so that nothing about the array is ever looked at. -/
theorem blk1_read (t : Fin cfg0.N) (A : S100000x64.Idx → Elt Ideal .f32) (p : Fin 2000) (j : Fin 64) :
    ((cfg0.win 1).blk t).view.read (Elt Ideal) A (ix2 p j)
      = A (ix2 ⟨2000 * t.val + p.val, by have := t_lt t; have := p.isLt; omega⟩ j) := by
  obtain ⟨-, ⟨h0, h1⟩, -⟩ := idx_facts t
  rw [View.read_apply]
  refine congrArg A ?_
  funext a
  apply Fin.ext
  match a with
  | ⟨0, _⟩ => exact (emb_val win0_1 t (ix2 p j) _ t.val 2000 p.val h0 rfl rfl).trans (Nat.mul_comm _ _ ▸ rfl)
  | ⟨1, _⟩ => exact (emb_val win0_1 t (ix2 p j) _ 0 64 j.val h1 rfl rfl).trans (by rw [Nat.zero_mul, Nat.zero_add])

/-- The aggregated features' block at point `t`: rows `2000 t …` of the scatter-added array (the array is rewritten to the
    scatter-add term before any index is applied to it, and that term is never opened). -/
theorem iblk_agg (c : Dev nD) (t : Fin cfg0.N) (p : Fin 2000) (j : Fin 64) :
    (iblk m c 1 t : Vec Ideal S2000x64 .f32) (ix2 p j)
      = agg (m ((c : Thread nD τ).loc main_arg1)) (m ((c : Thread nD τ).loc main_arg2)) (ix2 ⟨2000 * t.val + p.val, by have := t_lt t; have := p.isLt; omega⟩ j) := by
  unfold iblk
  rw [V_agg1 m c]
  exact blk1_read t (agg (m ((c : Thread nD τ).loc main_arg1)) (m ((c : Thread nD τ).loc main_arg2))) p j

/-- The first weight matrix's block is the whole matrix. -/
theorem iblk_w0 (c : Dev nD) (t : Fin cfg0.N) (k : Fin 128) (l : Fin 128) :
    (iblk m c 2 t : Vec Ideal S128x128 .bf16) (ix2 k l) = (m ((c : Thread nD τ).loc main_arg3) : S128x128.Idx → Elt Ideal .f32) (ix2 k l) := by
  obtain ⟨-, -, ⟨h0, h1⟩, -⟩ := idx_facts t
  unfold iblk
  rw [View.read_apply]
  show (V m c main_v5 : S128x128.Idx → Elt Ideal .bf16) _ = _
  rw [V_w0, truncf_apply]
  refine congrArg _ ?_
  funext a
  apply Fin.ext
  match a with
  | ⟨0, _⟩ => exact (emb_val win0_2 t (ix2 k l) _ 0 128 k.val h0 rfl rfl).trans (by rw [Nat.zero_mul, Nat.zero_add])
  | ⟨1, _⟩ => exact (emb_val win0_2 t (ix2 k l) _ 0 128 l.val h1 rfl rfl).trans (by rw [Nat.zero_mul, Nat.zero_add])

/-- The first bias row's block is the bias. -/
theorem iblk_b0 (c : Dev nD) (t : Fin cfg0.N) (l : Fin 128) :
    (iblk m c 3 t : Vec Ideal S1x128 .f32) (ix2 (0 : Fin 1) l) = (m ((c : Thread nD τ).loc main_arg4) : S128.Idx → Elt Ideal .f32) (ix1 l) := by
  obtain ⟨-, -, -, ⟨h0, h1⟩, -⟩ := idx_facts t
  unfold iblk
  rw [View.read_apply]
  show (V m c main_v8 : S1x128.Idx → Elt Ideal .f32) _ = _
  rw [V_b0]
  refine Eq.trans (congrArg _ ?_) (shapeCast_a_1a_apply _ shapeCasts_S128_S1x128 (0 : Fin 1) l)
  funext a
  apply Fin.ext
  match a with
  | ⟨0, _⟩ => exact (emb_val win0_3 t (ix2 (0 : Fin 1) l) _ 0 1 0 h0 rfl rfl).trans (by rw [Nat.zero_mul, Nat.zero_add]; rfl)
  | ⟨1, _⟩ => exact (emb_val win0_3 t (ix2 (0 : Fin 1) l) _ 0 128 l.val h1 rfl rfl).trans (by rw [Nat.zero_mul, Nat.zero_add])

/-- The second weight matrix's block is the whole matrix. -/
theorem iblk_w1 (c : Dev nD) (t : Fin cfg0.N) (k : Fin 128) (l : Fin 128) :
    (iblk m c 4 t : Vec Ideal S128x128 .bf16) (ix2 k l) = (m ((c : Thread nD τ).loc main_arg5) : S128x128.Idx → Elt Ideal .f32) (ix2 k l) := by
  obtain ⟨-, -, -, -, ⟨h0, h1⟩, -⟩ := idx_facts t
  unfold iblk
  rw [View.read_apply]
  show (V m c main_v6 : S128x128.Idx → Elt Ideal .bf16) _ = _
  rw [V_w1, truncf_apply]
  refine congrArg _ ?_
  funext a
  apply Fin.ext
  match a with
  | ⟨0, _⟩ => exact (emb_val win0_4 t (ix2 k l) _ 0 128 k.val h0 rfl rfl).trans (by rw [Nat.zero_mul, Nat.zero_add])
  | ⟨1, _⟩ => exact (emb_val win0_4 t (ix2 k l) _ 0 128 l.val h1 rfl rfl).trans (by rw [Nat.zero_mul, Nat.zero_add])

/-- The second bias row's block is the bias. -/
theorem iblk_b1 (c : Dev nD) (t : Fin cfg0.N) (l : Fin 128) :
    (iblk m c 5 t : Vec Ideal S1x128 .f32) (ix2 (0 : Fin 1) l) = (m ((c : Thread nD τ).loc main_arg6) : S128.Idx → Elt Ideal .f32) (ix1 l) := by
  obtain ⟨-, -, -, -, -, ⟨h0, h1⟩, -⟩ := idx_facts t
  unfold iblk
  rw [View.read_apply]
  show (V m c main_v9 : S1x128.Idx → Elt Ideal .f32) _ = _
  rw [V_b1]
  refine Eq.trans (congrArg _ ?_) (shapeCast_a_1a_apply _ shapeCasts_S128_S1x128 (0 : Fin 1) l)
  funext a
  apply Fin.ext
  match a with
  | ⟨0, _⟩ => exact (emb_val win0_5 t (ix2 (0 : Fin 1) l) _ 0 1 0 h0 rfl rfl).trans (by rw [Nat.zero_mul, Nat.zero_add]; rfl)
  | ⟨1, _⟩ => exact (emb_val win0_5 t (ix2 (0 : Fin 1) l) _ 0 128 l.val h1 rfl rfl).trans (by rw [Nat.zero_mul, Nat.zero_add])

/-- The third weight matrix's block is the whole matrix. -/
theorem iblk_w2 (c : Dev nD) (t : Fin cfg0.N) (k : Fin 128) (l : Fin 64) :
    (iblk m c 6 t : Vec Ideal S128x64 .bf16) (ix2 k l) = (m ((c : Thread nD τ).loc main_arg7) : S128x64.Idx → Elt Ideal .f32) (ix2 k l) := by
  obtain ⟨-, -, -, -, -, -, ⟨h0, h1⟩, -⟩ := idx_facts t
  unfold iblk
  rw [View.read_apply]
  show (V m c main_v7 : S128x64.Idx → Elt Ideal .bf16) _ = _
  rw [V_w2, truncf_apply]
  refine congrArg _ ?_
  funext a
  apply Fin.ext
  match a with
  | ⟨0, _⟩ => exact (emb_val win0_6 t (ix2 k l) _ 0 128 k.val h0 rfl rfl).trans (by rw [Nat.zero_mul, Nat.zero_add])
  | ⟨1, _⟩ => exact (emb_val win0_6 t (ix2 k l) _ 0 64 l.val h1 rfl rfl).trans (by rw [Nat.zero_mul, Nat.zero_add])

/-- The third bias row's block is the bias. -/
theorem iblk_b2 (c : Dev nD) (t : Fin cfg0.N) (l : Fin 64) :
    (iblk m c 7 t : Vec Ideal S1x64 .f32) (ix2 (0 : Fin 1) l) = (m ((c : Thread nD τ).loc main_arg8) : S64.Idx → Elt Ideal .f32) (ix1 l) := by
  obtain ⟨-, -, -, -, -, -, -, ⟨h0, h1⟩, -⟩ := idx_facts t
  unfold iblk
  rw [View.read_apply]
  show (V m c main_v10 : S1x64.Idx → Elt Ideal .f32) _ = _
  rw [V_b2]
  refine Eq.trans (congrArg _ ?_) (shapeCast_a_1a_apply _ shapeCasts_S64_S1x64 (0 : Fin 1) l)
  funext a
  apply Fin.ext
  match a with
  | ⟨0, _⟩ => exact (emb_val win0_7 t (ix2 (0 : Fin 1) l) _ 0 1 0 h0 rfl rfl).trans (by rw [Nat.zero_mul, Nat.zero_add]; rfl)
  | ⟨1, _⟩ => exact (emb_val win0_7 t (ix2 (0 : Fin 1) l) _ 0 64 l.val h1 rfl rfl).trans (by rw [Nat.zero_mul, Nat.zero_add])

/-- The scale row's block is the scale. -/
theorem iblk_g (c : Dev nD) (t : Fin cfg0.N) (l : Fin 64) :
    (iblk m c 8 t : Vec Ideal S1x64 .f32) (ix2 (0 : Fin 1) l) = (m ((c : Thread nD τ).loc main_arg9) : S64.Idx → Elt Ideal .f32) (ix1 l) := by
  obtain ⟨-, -, -, -, -, -, -, -, ⟨h0, h1⟩, -⟩ := idx_facts t
  unfold iblk
  rw [View.read_apply]
  show (V m c main_v11 : S1x64.Idx → Elt Ideal .f32) _ = _
  rw [V_g]
  refine Eq.trans (congrArg _ ?_) (shapeCast_a_1a_apply _ shapeCasts_S64_S1x64 (0 : Fin 1) l)
  funext a
  apply Fin.ext
  match a with
  | ⟨0, _⟩ => exact (emb_val win0_8 t (ix2 (0 : Fin 1) l) _ 0 1 0 h0 rfl rfl).trans (by rw [Nat.zero_mul, Nat.zero_add]; rfl)
  | ⟨1, _⟩ => exact (emb_val win0_8 t (ix2 (0 : Fin 1) l) _ 0 64 l.val h1 rfl rfl).trans (by rw [Nat.zero_mul, Nat.zero_add])

/-- The shift row's block is the shift. -/
theorem iblk_b (c : Dev nD) (t : Fin cfg0.N) (l : Fin 64) :
    (iblk m c 9 t : Vec Ideal S1x64 .f32) (ix2 (0 : Fin 1) l) = (m ((c : Thread nD τ).loc main_arg10) : S64.Idx → Elt Ideal .f32) (ix1 l) := by
  obtain ⟨-, -, -, -, -, -, -, -, -, ⟨h0, h1⟩, -⟩ := idx_facts t
  unfold iblk
  rw [View.read_apply]
  show (V m c main_v12 : S1x64.Idx → Elt Ideal .f32) _ = _
  rw [V_b]
  refine Eq.trans (congrArg _ ?_) (shapeCast_a_1a_apply _ shapeCasts_S64_S1x64 (0 : Fin 1) l)
  funext a
  apply Fin.ext
  match a with
  | ⟨0, _⟩ => exact (emb_val win0_9 t (ix2 (0 : Fin 1) l) _ 0 1 0 h0 rfl rfl).trans (by rw [Nat.zero_mul, Nat.zero_add]; rfl)
  | ⟨1, _⟩ => exact (emb_val win0_9 t (ix2 (0 : Fin 1) l) _ 0 64 l.val h1 rfl rfl).trans (by rw [Nat.zero_mul, Nat.zero_add])

/-! ## The result array -/

/-- What the result array ends holding: the node update of every row, over the arguments as launched. -/
abbrev result (c : Dev nD) : Buf (Elt Ideal) ((c : Thread nD τ).loc main_v13) :=
  G (m ((c : Thread nD τ).loc main_arg0)) (agg (m ((c : Thread nD τ).loc main_arg1)) (m ((c : Thread nD τ).loc main_arg2))) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Element `(p, q)` of point `t`'s result block is element `(2000 t + p, q)` of the array. -/
theorem emb_out (t : Fin cfg0.N) (p : Fin 2000) (q : Fin 64) :
    ((cfg0.win 10).blk t).view.emb (ix2 p q)
      = (ix2 (⟨2000 * t.val + p.val, by have := t_lt t; have := p.isLt; omega⟩ : Fin 100000) q : S100000x64.Idx) := by
  obtain ⟨-, -, -, -, -, -, -, -, -, -, ⟨h0, h1⟩⟩ := idx_facts t
  funext a
  apply Fin.ext
  match a with
  | ⟨0, _⟩ => exact (emb_val win0_10 t (ix2 p q) _ t.val 2000 p.val h0 rfl rfl).trans (Nat.mul_comm _ _ ▸ rfl)
  | ⟨1, _⟩ => exact (emb_val win0_10 t (ix2 p q) _ 0 64 q.val h1 rfl rfl).trans (by rw [Nat.zero_mul, Nat.zero_add])

/-- WHAT POINT `t` WRITES BACK is block `t` of `result`. -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero hz]
  simp only [View.ld_unit_zero (S := S2000x64) hz, View.ld_unit_zero (S := S128x128) hz, View.ld_unit_zero (S := S1x128) hz,
    View.ld_unit_zero (S := S128x64) hz, View.ld_unit_zero (S := S1x64) hz]
  funext y
  obtain ⟨p, q, rfl⟩ : ∃ (p : Fin 2000) (q : Fin 64), y = ix2 p q := ⟨y 0, y 1, eq_ix2 y⟩
  show k0_pay1 (iblk m c 0 t) (k0_pay2 (iblk m c 0 t) (iblk m c 1 t) (iblk m c 2 t) (iblk m c 3 t) (iblk m c 4 t) (iblk m c 5 t) (iblk m c 6 t) (iblk m c 7 t))
      (k0_pay3 (iblk m c 0 t) (iblk m c 1 t) (iblk m c 2 t) (iblk m c 3 t) (iblk m c 4 t) (iblk m c 5 t) (iblk m c 6 t) (iblk m c 7 t))
      (iblk m c 8 t) (iblk m c 9 t) (ix2 p q) = _
  rw [View.read_apply, emb_out t p q]
  refine (Row.body_apply (iblk m c 0 t) (iblk m c 1 t) (iblk m c 2 t) (iblk m c 3 t) (iblk m c 4 t) (iblk m c 5 t) (iblk m c 6 t)
    (iblk m c 7 t) (iblk m c 8 t) (iblk m c 9 t) p q).trans ?_
  refine Eq.trans ?_ (G_ix2 _ _ _ _ _ _ _ _ _ _ _ q).symm
  have e0 : (fun j => (iblk m c 0 t : Vec Ideal S2000x64 .f32) (ix2 p j)) = _ := funext fun j => iblk_x m c t p j
  have e1 : (fun j => (iblk m c 1 t : Vec Ideal S2000x64 .f32) (ix2 p j)) = _ := funext fun j => iblk_agg m c t p j
  have e2 : (fun k l => (iblk m c 2 t : Vec Ideal S128x128 .bf16) (ix2 k l)) = _ := funext fun k => funext fun l => iblk_w0 m c t k l
  have e3 : (fun l => (iblk m c 3 t : Vec Ideal S1x128 .f32) (ix2 (0 : Fin 1) l)) = _ := funext fun l => iblk_b0 m c t l
  have e4 : (fun k l => (iblk m c 4 t : Vec Ideal S128x128 .bf16) (ix2 k l)) = _ := funext fun k => funext fun l => iblk_w1 m c t k l
  have e5 : (fun l => (iblk m c 5 t : Vec Ideal S1x128 .f32) (ix2 (0 : Fin 1) l)) = _ := funext fun l => iblk_b1 m c t l
  have e6 : (fun k l => (iblk m c 6 t : Vec Ideal S128x64 .bf16) (ix2 k l)) = _ := funext fun k => funext fun l => iblk_w2 m c t k l
  have e7 : (fun l => (iblk m c 7 t : Vec Ideal S1x64 .f32) (ix2 (0 : Fin 1) l)) = _ := funext fun l => iblk_b2 m c t l
  have e8 : (fun l => (iblk m c 8 t : Vec Ideal S1x64 .f32) (ix2 (0 : Fin 1) l)) = _ := funext fun l => iblk_g m c t l
  have e9 : (fun l => (iblk m c 9 t : Vec Ideal S1x64 .f32) (ix2 (0 : Fin 1) l)) = _ := funext fun l => iblk_b m c t l
  rw [e0, e1, e2, e3, e4, e5, e6, e7, e8, e9]

/-- Every row of the array lies in some point's block: row `r` in point `r / 2000`'s. -/
theorem cover (i : S100000x64.Idx) : ∃ t : Fin cfg0.N, (cfg0.win 10).flush t = true ∧ i ∈ ((cfg0.win 10).blk t).view.set := by
  obtain ⟨r, q, rfl⟩ : ∃ (r : Fin 100000) (q : Fin 64), i = ix2 r q := ⟨i 0, i 1, eq_ix2 i⟩
  have hr : r.val < 100000 := r.isLt
  have hq : q.val < 64 := q.isLt
  let t : Fin cfg0.N := ⟨r.val / 2000, by rw [show cfg0.N = 50 from N_0]; omega⟩
  have ht : t.val = r.val / 2000 := rfl
  obtain ⟨-, -, -, -, -, -, -, -, -, -, ⟨h0, h1⟩⟩ := idx_facts t
  refine ⟨t, flush0_10 t, ?_⟩
  show (ix2 r q : S100000x64.Idx) ∈ ((View.whole main_v13).slice (win0_10.rect t)).set
  rw [View.set_slice_whole, Rect.mem_set_unit]
  intro a
  match a with
  | ⟨0, h⟩ =>
    have e1 : win0_10.index t ⟨0, h⟩ = t.val := h0
    have e2 : win0_10.size ⟨0, h⟩ = 2000 := rfl
    have e3 : win0_10.xsize (grid0.coords t) ⟨0, h⟩ = 2000 := rfl
    have e4 : ((ix2 r q : S100000x64.Idx) ⟨0, h⟩ : Nat) = r.val := rfl
    show win0_10.index t ⟨0, h⟩ * win0_10.size ⟨0, h⟩ ≤ ((ix2 r q : S100000x64.Idx) ⟨0, h⟩ : Nat)
      ∧ ((ix2 r q : S100000x64.Idx) ⟨0, h⟩ : Nat) < win0_10.index t ⟨0, h⟩ * win0_10.size ⟨0, h⟩ + win0_10.xsize (grid0.coords t) ⟨0, h⟩
    rw [e1, e2, e3, e4, ht]
    omega
  | ⟨1, h⟩ =>
    have e1 : win0_10.index t ⟨1, h⟩ = 0 := h1
    have e2 : win0_10.size ⟨1, h⟩ = 64 := rfl
    have e3 : win0_10.xsize (grid0.coords t) ⟨1, h⟩ = 64 := rfl
    have e4 : ((ix2 r q : S100000x64.Idx) ⟨1, h⟩ : Nat) = q.val := rfl
    show win0_10.index t ⟨1, h⟩ * win0_10.size ⟨1, h⟩ ≤ ((ix2 r q : S100000x64.Idx) ⟨1, h⟩ : Nat)
      ∧ ((ix2 r q : S100000x64.Idx) ⟨1, h⟩ : Nat) < win0_10.index t ⟨1, h⟩ * win0_10.size ⟨1, h⟩ + win0_10.xsize (grid0.coords t) ⟨1, h⟩
    rw [e1, e2, e3, e4]
    omega

/-- THE ARRAY after the run is `result`. -/
theorem final (c : Dev nD) : (dats m 0 c).arrAt 10 cfg0.N = result m c :=
  (dats m 0 c).arrAt_eq_of_cover 10 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Array

end
-- ==== Proof.RefRow.lean ====
/-
  The reference read one row at a time.

  The reference does to the whole 100000-row array what the kernel's body does to a 2000-row block: joins the node
  features with the aggregated edge features, applies the three affine layers with a rectifier after the first two,
  takes each row's mean and mean square deviation, normalises, scales, shifts, and adds the node features back. Read at
  an index `(r, q)`, every stage depends on row `r` only; the lemmas below follow the stages in program order and end in
  `result_eq`: the reference's result is `NodeUpdate.G` of its arguments, the aggregated features entering as the
  scatter-add term itself, which is never opened.
-/
import proofs.«181308_j31877247271255_1_alg».proof.Proof.Gen.ReferenceIdeal.Read
import proofs.«181308_j31877247271255_1_alg».proof.Proof.NodeUpdate
import Idealize.ShloMosaic.Lib.Pipeline.Value
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Idealize.ShloMosaic Idealize.ShloMosaic.ValueIdx Cert.NodeUpdate

/-- Two rank-2 indices with the same coordinates are equal. -/
local macro "idx2" : tactic =>
  `(tactic| (funext a; apply Fin.ext; match a with | ⟨0, _⟩ => rfl | ⟨1, _⟩ => rfl))
/-- Two rank-1 indices with the same coordinate are equal. -/
local macro "idx1" : tactic =>
  `(tactic| (funext a; apply Fin.ext; match a with | ⟨0, _⟩ => rfl))

/-! ## Where each stage reads its operands, at an index given by coordinates -/

theorem lidx6 (r : Fin 100000) (l k : Fin 128) : lidx_main_v6 (ix2 r l) k = ix2 r k := by idx2
theorem ridx6 (r : Fin 100000) (l k : Fin 128) : ridx_main_v6 (ix2 r l) k = ix2 k l := by idx2
theorem idx8 (r : Fin 100000) (l : Fin 128) : idx_main_v7 (idx_main_v8 (ix2 r l)) = ix1 l := by idx1
theorem lidx11 (r : Fin 100000) (l k : Fin 128) : lidx_main_v11 (ix2 r l) k = ix2 r k := by idx2
theorem ridx11 (r : Fin 100000) (l k : Fin 128) : ridx_main_v11 (ix2 r l) k = ix2 k l := by idx2
theorem idx13 (r : Fin 100000) (l : Fin 128) : idx_main_v12 (idx_main_v13 (ix2 r l)) = ix1 l := by idx1
theorem lidx16 (r : Fin 100000) (j : Fin 64) (k : Fin 128) : lidx_main_v16 (ix2 r j) k = ix2 r k := by idx2
theorem ridx16 (r : Fin 100000) (j : Fin 64) (k : Fin 128) : ridx_main_v16 (ix2 r j) k = ix2 k j := by idx2
theorem idx18 (r : Fin 100000) (j : Fin 64) : idx_main_v17 (idx_main_v18 (ix2 r j)) = ix1 j := by idx1
theorem idx20 (r : Fin 100000) (u : Fin 1) (k : Fin 64) : idx_main_v20 (idx_main_v21 (ix2 r u)) k = ix2 r k := by idx2
theorem idx24 (r : Fin 100000) (q : Fin 64) : idx_main_v24 (ix2 r q) = ix2 r (0 : Fin 1) := by idx2
theorem idx27 (r : Fin 100000) (q k : Fin 64) : idx_main_v27 (idx_main_v28 (idx_main_v36 (ix2 r q))) k = ix2 r k := by idx2
theorem idx31 (r : Fin 100000) (q : Fin 64) : idx_main_v31 (ix2 r q) = ix2 r (0 : Fin 1) := by idx2
theorem idx39 (r : Fin 100000) (q : Fin 64) : idx_main_v38 (idx_main_v39 (ix2 r q)) = ix1 q := by idx1
theorem idx42 (r : Fin 100000) (q : Fin 64) : idx_main_v41 (idx_main_v42 (ix2 r q)) = ix1 q := by idx1

variable (x0 : (⟨S100000x64, .f32⟩ : BufTy).Contents (Elt Ideal)) (x1 : (⟨S2x1200000, .i32⟩ : BufTy).Contents (Elt Ideal)) (x2 : (⟨S1200000x64, .f32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x64, .f32⟩ : BufTy).Contents (Elt Ideal)) (x8 x9 x10 : (⟨S64, .f32⟩ : BufTy).Contents (Elt Ideal))

/-! ## The join and the three layers -/

/-- Row `r` of the joined array: the node's features, then its aggregated edge features. -/
theorem joined_apply (r : Fin 100000) (k : Fin 128) :
    val_main_v5 (F := Ideal) x0 x1 x2 (ix2 r k)
      = joined (fun j => x0 (ix2 r j)) (fun j => val_main_v4 (F := Ideal) x1 x2 (ix2 r j)) k := by
  unfold val_main_v5 joined
  split
  next h =>
    exact concatenate_pair_apply_left (t := S100000x128) (s₁ := S100000x64) (s₂ := S100000x64) 1 x0 (val_main_v4 (F := Ideal) x1 x2)
      concatenates_S100000x64_S100000x64_S100000x128_d1 (ix2 r k) rfl (ix2 r ⟨k.val, h⟩)
      (fun b => match b with | ⟨0, _⟩ => rfl | ⟨1, _⟩ => rfl)
  next h =>
    exact concatenate_pair_apply_right (t := S100000x128) (s₁ := S100000x64) (s₂ := S100000x64) 1 x0 (val_main_v4 (F := Ideal) x1 x2)
      concatenates_S100000x64_S100000x64_S100000x128_d1 (ix2 r k) rfl rfl (ix2 r ⟨k.val - 64, by have := k.isLt; omega⟩)
      (fun b hb => match b, hb with | ⟨0, _⟩, _ => rfl | ⟨1, _⟩, hb => absurd rfl hb)
      (by show k.val - 64 + 64 = k.val; omega)

/-- The first layer with its rectifier, at `(r, l)`. -/
theorem layer1_apply (r : Fin 100000) (l : Fin 128) :
    val_main_v10 (F := Ideal) x0 x1 x2 x3 x4 (ix2 r l)
      = relu (affine (joined (fun j => x0 (ix2 r j)) (fun j => val_main_v4 (F := Ideal) x1 x2 (ix2 r j)))
          (fun k l => x3 (ix2 k l)) (fun l => x4 (ix1 l)) l) := by
  rw [val_main_v10_apply, val_main_v9_apply, val_main_v6_apply, val_main_v8_apply, val_main_v7_apply,
    val_main_call0_v0_apply, val_main_call0_cst_apply]
  simp only [lidx6, ridx6, idx8, joined_apply]
  rfl

/-- The second layer with its rectifier, at `(r, k)`, over the first layer's row. -/
theorem layer2_apply (r : Fin 100000) (k : Fin 128) :
    val_main_v15 (F := Ideal) x0 x1 x2 x3 x4 x5 x6 (ix2 r k)
      = relu (affine (fun l => val_main_v10 (F := Ideal) x0 x1 x2 x3 x4 (ix2 r l)) (fun k l => x5 (ix2 k l)) (fun l => x6 (ix1 l)) k) := by
  rw [val_main_v15_apply, val_main_v14_apply, val_main_v11_apply, val_main_v13_apply, val_main_v12_apply,
    val_main_call1_v0_apply, val_main_call1_cst_apply]
  simp only [lidx11, ridx11, idx13]
  rfl

/-- The third layer, at `(r, j)`, over the second layer's row. -/
theorem layer3_apply (r : Fin 100000) (j : Fin 64) :
    val_main_v19 (F := Ideal) x0 x1 x2 x3 x4 x5 x6 x7 x8 (ix2 r j)
      = affine (fun k => val_main_v15 (F := Ideal) x0 x1 x2 x3 x4 x5 x6 (ix2 r k)) (fun k l => x7 (ix2 k l)) (fun l => x8 (ix1 l)) j := by
  rw [val_main_v19_apply, val_main_v16_apply, val_main_v18_apply, val_main_v17_apply]
  simp only [lidx16, ridx16, idx18]
  rfl

/-- So row `r` of the value the reference normalises is `mlp` of row `r` of its inputs. -/
theorem mlp_row (r : Fin 100000) :
    (fun j => val_main_v19 (F := Ideal) x0 x1 x2 x3 x4 x5 x6 x7 x8 (ix2 r j))
      = mlp (fun j => x0 (ix2 r j)) (fun j => val_main_v4 (F := Ideal) x1 x2 (ix2 r j)) (fun k l => x3 (ix2 k l)) (fun l => x4 (ix1 l))
          (fun k l => x5 (ix2 k l)) (fun l => x6 (ix1 l)) (fun k l => x7 (ix2 k l)) (fun l => x8 (ix1 l)) := by
  funext j
  rw [layer3_apply]
  unfold mlp
  refine congrArg (fun a => affine a _ _ j) (funext fun k => ?_)
  rw [layer2_apply]
  refine congrArg relu (congrArg (fun a => affine a _ _ k) (funext fun l => ?_))
  exact layer1_apply x0 x1 x2 x3 x4 r l

/-! ## The row mean and the normalisation -/

/-- The column of row means at row `r`: the mean of the row (the sum's initial value is zero). -/
theorem mean_apply (r : Fin 100000) (u : Fin 1) :
    val_main_v23 (F := Ideal) x0 x1 x2 x3 x4 x5 x6 x7 x8 (ix2 r u) = mean64 (fun j => val_main_v19 (F := Ideal) x0 x1 x2 x3 x4 x5 x6 x7 x8 (ix2 r j)) := by
  rw [val_main_v23_apply, val_main_v21_apply, val_main_v20_apply, val_main_v22_apply, val_main_cst_1_apply, val_main_cst_0_apply]
  simp only [idx20, Ideal.ofBits_def, Ideal.ofBits_zero_f32, zero_add]
  rfl

/-- The result at `(r, q)`: `normed` of the row about its column entry of means, with scale, shift and residual. -/
theorem result_apply (r : Fin 100000) (q : Fin 64) :
    val_main_v44 (F := Ideal) x0 x1 x2 x3 x4 x5 x6 x7 x8 x9 x10 (ix2 r q)
      = normed (fun j => val_main_v19 (F := Ideal) x0 x1 x2 x3 x4 x5 x6 x7 x8 (ix2 r j)) (val_main_v23 (F := Ideal) x0 x1 x2 x3 x4 x5 x6 x7 x8 (ix2 r (0 : Fin 1)))
          (fun l => x9 (ix1 l)) (fun l => x10 (ix1 l)) (fun j => x0 (ix2 r j)) q := by
  rw [val_main_v44_apply, val_main_v43_apply, val_main_v40_apply, val_main_v37_apply, val_main_v32_apply, val_main_v31_apply,
    val_main_v36_apply, val_main_v35_apply, val_main_v34_apply, val_main_v30_apply, val_main_v28_apply, val_main_v27_apply,
    val_main_v29_apply, val_main_cst_3_apply, val_main_v33_apply, val_main_cst_4_apply, val_main_cst_2_apply,
    val_main_v39_apply, val_main_v38_apply, val_main_v42_apply, val_main_v41_apply]
  simp only [val_main_v26_apply, val_main_v25_apply, val_main_v24_apply, idx24, idx27, idx31, idx39, idx42,
    Ideal.ofBits_def, Ideal.ofBits_zero_f32, zero_add]
  rfl

/-- THE REFERENCE'S RESULT is `G` of the node features, the scatter-added edge features and the weights. -/
theorem result_eq :
    val_main_v44 (F := Ideal) x0 x1 x2 x3 x4 x5 x6 x7 x8 x9 x10
      = G x0 (val_main_v4 (F := Ideal) x1 x2) x3 x4 x5 x6 x7 x8 x9 x10 := by
  funext i
  obtain ⟨r, q, rfl⟩ : ∃ (r : Fin 100000) (q : Fin 64), i = ix2 r q := ⟨i 0, i 1, eq_ix2 i⟩
  rw [G_ix2, result_apply, mean_apply, mlp_row]
  rfl

end Cert.ReferenceIdeal.Row

end
-- ==== Proof.lean ====
/-
  The node update kernel against its reference: the certificate's claims.

  Both programs compute, for each of 100000 nodes, the same function of that node's features, of the edge features
  scatter-added onto it, and of the weights: three affine layers on the joined row with a rectifier after the first two,
  a normalisation of the 64 results about their mean, a scale, a shift, and the node's features added back
  (`NodeUpdate.G`). The kernel does it 2000 rows at a time on a grid of 50 points, with the weights narrowed to sixteen
  bits and the matrix products taken on blocks; the reference does it on the whole arrays. Over the extended reals a
  narrowing is the identity, a block product into a zero accumulator is the same sum as the host's product, and a row
  sum is a sum in any order, so the two results are one function of the arguments, index by index; no algebraic law is
  needed beyond that, and the finiteness of the inputs is never used. The scatter-add is the same host operation in both
  programs and is carried as one term, never opened.

  The three frames are the generated ones (the reference's is its run with the result dropped); the idealization rewrote
  nothing, so `preserves` is `True`.
-/
import proofs.«181308_j31877247271255_1_alg».proof.Defs
import proofs.«181308_j31877247271255_1_alg».proof.Proof.Gen.Kernel
import proofs.«181308_j31877247271255_1_alg».proof.Proof.Gen.Kernel.Skeleton
import proofs.«181308_j31877247271255_1_alg».proof.Proof.Gen.Kernel.Launch
import proofs.«181308_j31877247271255_1_alg».proof.Proof.Gen.Kernel.Points
import proofs.«181308_j31877247271255_1_alg».proof.Proof.Gen.Kernel.Frame
import proofs.«181308_j31877247271255_1_alg».proof.Proof.Gen.KernelIdeal
import proofs.«181308_j31877247271255_1_alg».proof.Proof.Gen.KernelIdeal.Skeleton
import proofs.«181308_j31877247271255_1_alg».proof.Proof.Gen.KernelIdeal.Launch
import proofs.«181308_j31877247271255_1_alg».proof.Proof.Gen.KernelIdeal.Points
import proofs.«181308_j31877247271255_1_alg».proof.Proof.Gen.KernelIdeal.Frame
import proofs.«181308_j31877247271255_1_alg».proof.Proof.Gen.ReferenceIdeal
import proofs.«181308_j31877247271255_1_alg».proof.Proof.Gen.Pre_finite_inputs
import proofs.«181308_j31877247271255_1_alg».proof.Proof.Gen.KernelIdeal.Value
import proofs.«181308_j31877247271255_1_alg».proof.Proof.Gen.ReferenceIdeal.Run
import proofs.«181308_j31877247271255_1_alg».proof.Proof.Gen.ReferenceIdeal.Read
import proofs.«181308_j31877247271255_1_alg».proof.Proof.KernelArray
import proofs.«181308_j31877247271255_1_alg».proof.Proof.RefRow
import Idealize.ShloMosaic.Adequacy
import Idealize.ShloMosaic.Init

noncomputable section

namespace Cert.Proof

open Idealize.ShloMosaic Idealize.SL.Sem Cert.Kernel

/-- The aggregated edge features are one term in both programs: the same scatter-add of the same operands. -/
theorem agg_eq (x1 : (⟨Cert.ReferenceIdeal.S2x1200000, .i32⟩ : BufTy).Contents (Elt Ideal))
    (x2 : (⟨Cert.ReferenceIdeal.S1200000x64, .f32⟩ : BufTy).Contents (Elt Ideal)) :
    Cert.ReferenceIdeal.Read.val_main_v4 (F := Ideal) x1 x2 = Cert.KernelIdeal.Array.agg x1 x2 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `NodeUpdate.G` of the arguments: the kernel's by the blocks it writes back,
    the reference's by its stages read row by row; the arguments agree, so the results do. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v44_eq, Cert.ReferenceIdeal.Row.result_eq, agg_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
